-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x64 : Shape := ⟨2, ![256, 64]⟩
abbrev S1x64 : Shape := ⟨2, ![1, 64]⟩
abbrev S64x16 : Shape := ⟨2, ![64, 16]⟩
abbrev S1x16 : Shape := ⟨2, ![1, 16]⟩
abbrev S16x4 : Shape := ⟨2, ![16, 4]⟩
abbrev S1x4 : Shape := ⟨2, ![1, 4]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1x64 : S_.BroadcastsInDim S1x64 (![] : Fin 0 → Fin S1x64.rank)
  reducesTo_S1x64_S_d0_1 : S1x64.ReducesTo [0, 1] S_
  bcast_S_S64x16 : S_.BroadcastsInDim S64x16 (![] : Fin 0 → Fin S64x16.rank)
  reducesTo_S64x16_S_d0_1 : S64x16.ReducesTo [0, 1] S_
  bcast_S_S1x16 : S_.BroadcastsInDim S1x16 (![] : Fin 0 → Fin S1x16.rank)
  reducesTo_S1x16_S_d0_1 : S1x16.ReducesTo [0, 1] S_
  bcast_S_S16x4 : S_.BroadcastsInDim S16x4 (![] : Fin 0 → Fin S16x4.rank)
  reducesTo_S16x4_S_d0_1 : S16x4.ReducesTo [0, 1] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg4 : FVec F S1x16 .f32) (main_arg5 : FVec F S16x4 .f32) (main_arg6 : FVec F S1x4 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S16x4 .f32 := Host.absf main_arg5
  let main_cst_8 : FVec F S_ .f32 := constant S_ .f32 0x7F800000#32
  let main_v25 : FVec F S16x4 .f32 := broadcastInDim S16x4 ![] bcast_S_S16x4 main_cst_8
  let main_v26 : IVec S16x4 1 := cmpf .olt main_v24 main_v25
  let main_c_9 : IVec S_ 1 := constantI S_ 1 1#1
  let main_v27 : IVec S_ 1 := (fun x v => Host.reduce IntOp.andi x v reducesTo_S16x4_S_d0_1 h_S_) main_v26 main_c_9
  let main_v28 : IVec S_ 1 := andi main_v23 main_v27
  let main_v29 : FVec F S1x4 .f32 := Host.absf main_arg6
  let main_cst_10 : FVec F S_ .f32 := constant S_ .f32 0x7F800000#32
  let main_v30 : FVec F S1x4 .f32 := broadcastInDim S1x4 ![] bcast_S_S1x4 main_cst_10
  let main_v31 : IVec S1x4 1 := cmpf .olt main_v29 main_v30
  let main_c_11 : IVec S_ 1 := constantI S_ 1 1#1
  let main_v32 : IVec S_ 1 := (fun x v => Host.reduce IntOp.andi x v reducesTo_S1x4_S_d0_1 h_S_) main_v31 main_c_11
  let main_v33 : IVec S_ 1 := andi main_v28 main_v32
  main_v33

def fn {F : FTy → Type} [FloatOps F] (main_arg0 : FVec F S262144x256 .f32) (main_arg1 : FVec F S256x64 .f32) (main_arg2 : FVec F S1x64 .f32) (main_arg3 : FVec F S64x16 .f32) (main_arg4 : FVec F S1x16 .f32) (main_arg5 : FVec F S16x4 .f32) (main_arg6 : FVec F S1x4 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_v13 main_v16
-- ==== Kernel.lean ====
abbrev S262144x256 : Shape := ⟨2, ![262144, 256]⟩
abbrev S256x64 : Shape := ⟨2, ![256, 64]⟩
abbrev S1x64 : Shape := ⟨2, ![1, 64]⟩
abbrev S64x16 : Shape := ⟨2, ![64, 16]⟩
abbrev S1x16 : Shape := ⟨2, ![1, 16]⟩
abbrev S16x4 : Shape := ⟨2, ![16, 4]⟩
abbrev S1x4 : Shape := ⟨2, ![1, 4]⟩
abbrev S262144x4 : Shape := ⟨2, ![262144, 4]⟩
abbrev S8192x256 : Shape := ⟨2, ![8192, 256]⟩
abbrev S8192x4 : Shape := ⟨2, ![8192, 4]⟩
abbrev S8192x64 : Shape := ⟨2, ![8192, 64]⟩
abbrev S8192x16 : Shape := ⟨2, ![8192, 16]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S256x64, .f32⟩
  | .hbm, ⟨2, _⟩ => ⟨S1x64, .f32⟩
  | .hbm, ⟨3, _⟩ => ⟨S64x16, .f32⟩
  | .hbm, ⟨4, _⟩ => ⟨S1x16, .f32⟩
  | .hbm, ⟨5, _⟩ => ⟨S16x4, .f32⟩
  | .hbm, ⟨6, _⟩ => ⟨S1x4, .f32⟩
  | .hbm, ⟨7, _⟩ => ⟨S262144x4, .f32⟩
  | .hbm, ⟨8, _⟩ => ⟨S_, .f32⟩
  | .hbm, ⟨9, _⟩ => ⟨S_, .f32⟩
  | .hbm, ⟨10, _⟩ => ⟨S262144x4, .f32⟩
  | .hbm, ⟨11, _⟩ => ⟨S262144x4, .f32⟩
  | .hbm, ⟨12, _⟩ => ⟨S262144x4, .f32⟩
  | .hbm, ⟨13, _⟩ => ⟨S_, .f32⟩
  | .hbm, ⟨14, _⟩ => ⟨S_, .f32⟩
  | .hbm, ⟨15, _⟩ => ⟨S262144x4, .f32⟩
  | .hbm, ⟨16, _⟩ => ⟨S262144x4, .f32⟩
  | .local _ .vmem, ⟨0, _⟩ => ⟨S8192x256, .f32⟩
  | .local _ .vmem, ⟨1, _⟩ => ⟨S8192x256, .f32⟩
  | .local _ .vmem, ⟨2, _⟩ => ⟨S256x64, .f32⟩
  | .local _ .vmem, ⟨3, _⟩ => ⟨S1x64, .f32⟩
  | .local _ .vmem, ⟨4, _⟩ => ⟨S64x16, .f32⟩
  | .local _ .vmem, ⟨5, _⟩ => ⟨S1x16, .f32⟩
  | .local _ .vmem, ⟨6, _⟩ => ⟨S16x4, .f32⟩
  | .local _ .vmem, ⟨7, _⟩ => ⟨S1x4, .f32⟩
  | .local _ .vmem, ⟨8, _⟩ => ⟨S8192x4, .f32⟩
  | .local _ .vmem, ⟨9, _⟩ => ⟨S8192x4, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  broadcasts_S1x64_S8192x64 : S1x64.Broadcasts S8192x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  broadcasts_S1x16_S8192x16 : S1x16.Broadcasts S8192x16
  inb_S16x4_S16x4_0_0 : ∀ a, (![0, 0] : Fin 2 → Nat) a + S16x4.size a ≤ S16x4.size a
  h_S16x4 : 0 < S16x4.numel
  inb_S1x4_S1x4_0_0 : ∀ a, (![0, 0] : Fin 2 → Nat) a + S1x4.size a ≤ S1x4.size a
  h_S1x4 : 0 < S1x4.numel
  broadcasts_S1x4_S8192x4 : S1x4.Broadcasts S8192x4
  inb_S8192x4_S8192x4_0_0 : ∀ a, (![0, 0] : Fin 2 → Nat) a + S8192x4.size a ≤ S8192x4.size a
  h_S8192x4 : 0 < S8192x4.numel
  reducesTo_S262144x4_S_d0_1 : S262144x4.ReducesTo [0, 1] S_
  h_S_ : 0 < S_.numel
  bcast_S_S262144x4 : S_.BroadcastsInDim S262144x4 (![] : Fin 0 → Fin S262144x4.rank)
  dot_S8192x256_S256x64_S8192x64_1_0_0_1_n_n_wf : DotDims.WF S8192x256 S256x64 S8192x64 [1] [0] [0] [1] [] []
  dot_S8192x64_S64x16_S8192x16_1_0_0_1_n_n_wf : DotDims.WF S8192x64 S64x16 S8192x16 [1] [0] [0] [1] [] []
  dot_S8192x16_S16x4_S8192x4_1_0_0_1_n_n_wf : DotDims.WF S8192x16 S16x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x4.size a ≤ S16x4.size a
  hwx0_5 : ∀ i : grid0.Coords, EltTy.bits .f32 = 32 ∨ (Rect.block (s := S16x4) S16x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x4.size a ≤ S262144x4.size a
  hwx0_7 : ∀ i : grid0.Coords, EltTy.bits .f32 = 32 ∨ (Rect.block (s := S262144x4) S8192x4.size (cc0_transform_7 i) (hinb0_7 i)).WholeWords (EltTy.packing .f32)

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x64 : Shape := ⟨2, ![256, 64]⟩
abbrev S1x64 : Shape := ⟨2, ![1, 64]⟩
abbrev S64x16 : Shape := ⟨2, ![64, 16]⟩
abbrev S1x16 : Shape := ⟨2, ![1, 16]⟩
abbrev S16x4 : Shape := ⟨2, ![16, 4]⟩
abbrev S1x4 : Shape := ⟨2, ![1, 4]⟩
abbrev S262144x64 : Shape := ⟨2, ![262144, 64]⟩
abbrev S_ : Shape := ⟨0, ![]⟩
abbrev S262144x16 : Shape := ⟨2, ![262144, 16]⟩
abbrev S262144x4 : Shape := ⟨2, ![262144, 4]⟩

abbrev nBuf : Space → Nat
  | .hbm => 29
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x64, .f32⟩
  | .hbm, ⟨2, _⟩ => ⟨S1x64, .f32⟩
  | .hbm, ⟨3, _⟩ => ⟨S64x16, .f32⟩
  | .hbm, ⟨4, _⟩ => ⟨S1x16, .f32⟩
  | .hbm, ⟨5, _⟩ => ⟨S16x4, .f32⟩
  | .hbm, ⟨6, _⟩ => ⟨S1x4, .f32⟩
  | .hbm, ⟨7, _⟩ => ⟨S262144x64, .f32⟩
  | .hbm, ⟨8, _⟩ => ⟨S262144x64, .f32⟩
  | .hbm, ⟨9, _⟩ => ⟨S262144x64, .f32⟩
  | .hbm, ⟨10, _⟩ => ⟨S_, .f32⟩
  | .hbm, ⟨11, _⟩ => ⟨S262144x64, .f32⟩
  | .hbm, ⟨12, _⟩ => ⟨S262144x64, .f32⟩
  | .hbm, ⟨13, _⟩ => ⟨S262144x16, .f32⟩
  | .hbm, ⟨14, _⟩ => ⟨S262144x16, .f32⟩
  | .hbm, ⟨15, _⟩ => ⟨S262144x16, .f32⟩
  | .hbm, ⟨16, _⟩ => ⟨S262144x16, .f32⟩
  | .hbm, ⟨17, _⟩ => ⟨S262144x4, .f32⟩
  | .hbm, ⟨18, _⟩ => ⟨S262144x4, .f32⟩
  | .hbm, ⟨19, _⟩ => ⟨S262144x4, .f32⟩
  | .hbm, ⟨20, _⟩ => ⟨S_, .f32⟩
  | .hbm, ⟨21, _⟩ => ⟨S_, .f32⟩
  | .hbm, ⟨22, _⟩ => ⟨S262144x4, .f32⟩
  | .hbm, ⟨23, _⟩ => ⟨S262144x4, .f32⟩
  | .hbm, ⟨24, _⟩ => ⟨S262144x4, .f32⟩
  | .hbm, ⟨25, _⟩ => ⟨S_, .f32⟩
  | .hbm, ⟨26, _⟩ => ⟨S_, .f32⟩
  | .hbm, ⟨27, _⟩ => ⟨S262144x4, .f32⟩
  | .hbm, ⟨28, _⟩ => ⟨S262144x4, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1x16_S262144x16_0_1 : S1x16.BroadcastsInDim S262144x16 (![0, 1] : Fin 2 → Fin S262144x16.rank)
  bcast_S1x4_S262144x4_0_1 : S1x4.BroadcastsInDim S262144x4 (![0, 1] : Fin 2 → Fin S262144x4.rank)
  reducesTo_S262144x4_S_d0_1 : S262144x4.ReducesTo [0, 1] S_
  h_S_ : 0 < S_.numel
  bcast_S_S262144x4 : S_.BroadcastsInDim S262144x4 (![] : Fin 0 → Fin S262144x4.rank)
  dot_S262144x256_S256x64_S262144x64_1_0_0_1_n_n_wf : DotDims.WF S262144x256 S256x64 S262144x64 [1] [0] [0] [1] [] []
  dot_S262144x64_S64x16_S262144x16_1_0_0_1_n_n_wf : DotDims.WF S262144x64 S64x16 S262144x16 [1] [0] [0] [1] [] []
  dot_S262144x16_S16x4_S262144x4_1_0_0_1_n_n_wf : DotDims.WF S262144x16 S16x4 S262144x4 [1] [0] [0] [1] [] []

variable [Facts₀]

def dot_S262144x256_S256x64_S262144x64_1_0_0_1_n_n : DotDims S262144x256 S256x64 S262144x64 where
  lhsContracting := [1]
  rhsContracting := [0]
  lhsNonContracting := [0]
  rhsNonContracting := [1]
  lhsBatch := []
  rhsBatch := []
  wf := dot_S262144x256_S256x64_S262144x64_1_0_0_1_n_n_wf
def dot_S262144x64_S64x16_S262144x16_1_0_0_1_n_n : DotDims S262144x64 S64x16 S262144x16 where
  lhsContracting := [1]
  rhsContracting := [0]
  lhsNonContracting := [0]
  rhsNonContracting := [1]
  lhsBatch := []
  rhsBatch := []
  wf := dot_S262144x64_S64x16_S262144x16_1_0_0_1_n_n_wf
def dot_S262144x16_S16x4_S262144x4_1_0_0_1_n_n : DotDims S262144x16 S16x4 S262144x4 where
  lhsContracting := [1]
  rhsContracting := [0]
  lhsNonContracting := [0]
  rhsNonContracting := [1]
  lhsBatch := []
  rhsBatch := []
  wf := dot_S262144x16_S16x4_S262144x4_1_0_0_1_n_n_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Mlp.lean ====
/-
  The function both programs compute before the final normalisation, at the ideal values: a three-layer perceptron
  applied to each of the 262144 rows of `x`.

  For one row `r : Fin 256 → EReal` and weights `W1 (256×64)`, `W2 (64×16)`, `W3 (16×4)` with one-row biases
  `B1`, `B2`, `B3`:
    first hidden layer   h1 k = max (Σ_c r c · W1 (c, k) + B1 (0, k)) 0
    second hidden layer  h2 k = tanh (Σ_c h1 c · W2 (c, k) + B2 (0, k))
    logits               o  q = Σ_c h2 c · W3 (c, q) + B3 (0, q)
  The whole array of logits, `logits X …`, has at (i, q) the logit `q` of row `i` of `X`. Nothing here depends on
  how the rows are grouped into blocks: a block of rows of the result depends only on the same rows of `X`.
-/
import Idealize.ShloMosaic.Lib.ValueIdx
import Idealize.ShloMosaic.PureOps.Ideal.Laws

noncomputable section

open scoped BigOperators

namespace Cert.Mlp

open Idealize.ShloMosaic Idealize.ShloMosaic.ValueIdx

/-- An `a × b` array of extended reals, indexed as the printed programs index theirs. -/
abbrev Mat (a b : Nat) : Type := (⟨2, ![a, b]⟩ : Shape).Idx → EReal

/-- The first hidden layer of one row: the positive part of an affine map of the row. The zero the positive part is
    taken against is kept as the f32 word both programs print. -/
def hid1 (r : Fin 256 → EReal) (W1 : Mat 256 64) (B1 : Mat 1 64) (k : Fin 64) : EReal :=
  max ((∑ c : Fin 256, r c * W1 (ix2 c k)) + B1 (ix2 (0 : Fin 1) k)) (Ideal.ofBits .f32 0x00000000#32)

/-- The second hidden layer of one row: the hyperbolic tangent of an affine map of the first. -/
def hid2 (r : Fin 256 → EReal) (W1 : Mat 256 64) (B1 : Mat 1 64) (W2 : Mat 64 16) (B2 : Mat 1 16) (k : Fin 16) : EReal :=
  Ideal.tanh ((∑ c : Fin 64, hid1 r W1 B1 c * W2 (ix2 c k)) + B2 (ix2 (0 : Fin 1) k))

/-- The four logits of one row: an affine map of the second hidden layer. -/
def logit (r : Fin 256 → EReal) (W1 : Mat 256 64) (B1 : Mat 1 64) (W2 : Mat 64 16) (B2 : Mat 1 16)
    (W3 : Mat 16 4) (B3 : Mat 1 4) (q : Fin 4) : EReal :=
  (∑ c : Fin 16, hid2 r W1 B1 W2 B2 c * W3 (ix2 c q)) + B3 (ix2 (0 : Fin 1) q)

/-- Row `i` of an array with 256 columns. -/
def row {n : Nat} (X : Mat n 256) (i : Fin n) : Fin 256 → EReal := fun c => X (ix2 i c)

/-- The logits of every row of `X`. -/
def logits (X : Mat 262144 256) (W1 : Mat 256 64) (B1 : Mat 1 64) (W2 : Mat 64 16) (B2 : Mat 1 16)
    (W3 : Mat 16 4) (B3 : Mat 1 4) : Mat 262144 4 :=
  fun i => logit (row X (i 0)) W1 B1 W2 B2 W3 B3 (i 1)

end Cert.Mlp

end
-- ==== Proof.BlockValue.lean ====
/-
  What the kernel body computes for one block of 8192 rows, read at an entry, at the ideal values.

  The body's one store writes `((relu (x·W1 + b1))·W2 + b2).tanh·W3 + b3` of the block's rows, each product a matrix
  product into the zero accumulator and each bias a one-row array laid along every row. Rounding an operand to bf16
  before a product is the identity at the ideal values, so entry (p, q) of the stored block is logit `q` of the
  perceptron applied to row `p` of the block of `x`.
-/
import proofs.«173424_j26654567039110_1_alg».proof.Proof.Gen.KernelIdeal.Skeleton
import proofs.«173424_j26654567039110_1_alg».proof.Proof.LibDot
import proofs.«173424_j26654567039110_1_alg».proof.Proof.Mlp
import Idealize.ShloMosaic.Lib.ValueLayout

noncomputable section

open scoped BigOperators

namespace Cert.KernelIdeal.BlockValue

open Cert.KernelIdeal Cert.KernelIdeal.Gen Idealize.ShloMosaic Idealize.ShloMosaic.ValueIdx

/-- An affine layer read at an entry: a rows-by-columns product into the zero accumulator plus a one-row bias laid
    along every row is, at (a, b), the sum over the contracted coordinate plus the bias at column `b`. -/
theorem affine_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![M, K]⟩ φ₁) (B : FVec Ideal ⟨2, ![K, N]⟩ φ₂) (bias : FVec Ideal ⟨2, ![1, N]⟩ .f32)
    (hb : (⟨2, ![1, N]⟩ : Shape).Broadcasts ⟨2, ![M, N]⟩) (a : Fin M) (b : Fin N) :
    addf (matmul (F := Ideal) d none A B (constant ⟨2, ![M, N]⟩ .f32 0x00000000#32)) (broadcastTo ⟨2, ![M, N]⟩ bias hb) (ix2 a b)
      = (∑ c : Fin K, A (ix2 a c) * B (ix2 c b)) + bias (ix2 (0 : Fin 1) b) := by
  rw [addf_apply, Cert.LibDot.matmul_10_zero_apply d hlc hrc hln hrn hlb hrb, broadcastTo_1b_ab_apply]

/-- Entry (p, q) of the block the body stores is logit `q` of row `p` of the block of `x` it loaded. -/
theorem pay_apply (x0 : Vec Ideal S8192x256 .f32) (x1 : Vec Ideal S256x64 .f32) (x2 : Vec Ideal S1x64 .f32)
    (x3 : Vec Ideal S64x16 .f32) (x4 : Vec Ideal S1x16 .f32) (x5 : Vec Ideal S16x4 .f32) (x6 : Vec Ideal S1x4 .f32)
    (p : Fin 8192) (q : Fin 4) :
    k0_pay1 (F := Ideal) x0 x1 x2 x3 x4 x5 x6 (ix2 p q) = Cert.Mlp.logit (Cert.Mlp.row x0 p) x1 x2 x3 x4 x5 x6 q := by
  unfold k0_pay1 Cert.Mlp.logit
  refine (affine_apply _ rfl rfl rfl rfl rfl rfl _ _ _ _ p q).trans ?_
  refine congrArg (· + x6 (ix2 (0 : Fin 1) q)) (Finset.sum_congr rfl fun c _ => congrArg (· * x5 (ix2 c q)) ?_)
  unfold Cert.Mlp.hid2
  refine congrArg Ideal.tanh ?_
  refine (affine_apply _ rfl rfl rfl rfl rfl rfl _ _ _ _ p c).trans ?_
  refine congrArg (· + x4 (ix2 (0 : Fin 1) c)) (Finset.sum_congr rfl fun c' _ => congrArg (· * x3 (ix2 c' c)) ?_)
  unfold Cert.Mlp.hid1
  refine congrArg (max · (Ideal.ofBits .f32 0x00000000#32)) ?_
  refine (affine_apply _ rfl rfl rfl rfl rfl rfl _ _ _ _ p c').trans ?_
  rfl

end Cert.KernelIdeal.BlockValue

end
-- ==== Proof.Logits.lean ====
/-
  The array the kernel's one region leaves: the perceptron's logits of every row of `x`.

  The grid has 32 points. At point `t` the region stages rows 8192·t … 8192·t + 8191 of `x` and the six weight and
  bias arrays whole, and writes back rows 8192·t … 8192·t + 8191 of the result. The stored block's entry (p, q) is
  logit `q` of row `p` of the staged block of `x`, that is of row 8192·t + p of `x`: the block is the restriction
  of ONE whole-array function, the logits of all rows. The 32 blocks of 8192 rows cover all 262144 rows, so after the
  run the array holds that function.
-/
import proofs.«173424_j26654567039110_1_alg».proof.Proof.Gen.KernelIdeal.Frame
import proofs.«173424_j26654567039110_1_alg».proof.Proof.BlockValue
import Idealize.ShloMosaic.Lib.Pipeline.Value

set_option maxRecDepth 16384

noncomputable section

open scoped BigOperators

namespace Cert.KernelIdeal.Logits

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- A block of rows of the logits depends only on the same rows of the input: if `xb`'s row `p` is `X`'s row `i 0`
    and `q` is `i`'s column, logit `q` of `xb`'s row `p` is the whole array's entry `i`. -/
theorem logits_of_row (X : Cert.Mlp.Mat 262144 256) (W1 : Cert.Mlp.Mat 256 64) (B1 : Cert.Mlp.Mat 1 64)
    (W2 : Cert.Mlp.Mat 64 16) (B2 : Cert.Mlp.Mat 1 16) (W3 : Cert.Mlp.Mat 16 4) (B3 : Cert.Mlp.Mat 1 4)
    (xb : Cert.Mlp.Mat 8192 256) (i : (⟨2, ![262144, 4]⟩ : Shape).Idx) (p : Fin 8192) (q : Fin 4)
    (hq : (i 1).val = q.val) (hx : ∀ k : Fin 256, xb (ix2 p k) = X (ix2 (i 0) k)) :
    Cert.Mlp.logit (Cert.Mlp.row xb p) W1 B1 W2 B2 W3 B3 q = Cert.Mlp.logits X W1 B1 W2 B2 W3 B3 i := by
  unfold Cert.Mlp.logits
  have e1 : i 1 = q := Fin.ext hq
  have e2 : Cert.Mlp.row xb p = Cert.Mlp.row X (i 0) := funext fun k => hx k
  rw [e1, e2]

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided once over the 32 grid points: the window over `x` moves with the output window
    along the rows and stays at column block 0; the six weight and bias windows stay at block (0, 0); the output
    window's row block is below 32 and its column block is 0. -/
theorem idx_facts : ∀ t : Fin cfg0.N, win0_0.index t (0 : Fin 2) = win0_7.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 31 ∧ win0_7.index t (1 : Fin 2) = 0 :=
  (by decide +kernel : ∀ t : Fin grid0.N, _)

/-- Every row block of the output is some point's. -/
theorem idx_onto : ∀ q0 : Fin 32, ∃ t : Fin cfg0.N, win0_7.index t = ![q0.val, 0] :=
  (by decide +kernel : ∀ q0 : Fin 32, ∃ t : Fin grid0.N, win0_7.index t = ![q0.val, 0])

/-! ## The windows staged whole: the block at every point is the array -/

theorem blk1 (c : Dev nD) (t : Fin cfg0.N) : (iblk m c 1 t : Vec Ideal S256x64 .f32) = V m c main_arg1 := by
  funext y
  show V m c main_arg1 (((cfg0.win 1).blk t).view.emb y) = V m c main_arg1 y
  obtain ⟨-, -, e0, e1, -⟩ := idx_facts t
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 64 + 1 * (y 1).val = (y 1).val; omega

theorem blk2 (c : Dev nD) (t : Fin cfg0.N) : (iblk m c 2 t : Vec Ideal S1x64 .f32) = V m c main_arg2 := by
  funext y
  show V m c main_arg2 (((cfg0.win 2).blk t).view.emb y) = V m c main_arg2 y
  obtain ⟨-, -, -, -, e0, e1, -⟩ := idx_facts t
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem blk3 (c : Dev nD) (t : Fin cfg0.N) : (iblk m c 3 t : Vec Ideal S64x16 .f32) = V m c main_arg3 := by
  funext y
  show V m c main_arg3 (((cfg0.win 3).blk t).view.emb y) = V m c main_arg3 y
  obtain ⟨-, -, -, -, -, -, e0, e1, -⟩ := idx_facts t
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 16 + 1 * (y 1).val = (y 1).val; omega

theorem blk4 (c : Dev nD) (t : Fin cfg0.N) : (iblk m c 4 t : Vec Ideal S1x16 .f32) = V m c main_arg4 := by
  funext y
  show V m c main_arg4 (((cfg0.win 4).blk t).view.emb y) = V m c main_arg4 y
  obtain ⟨-, -, -, -, -, -, -, -, e0, e1, -⟩ := idx_facts t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 16 + 1 * (y 1).val = (y 1).val; omega

theorem blk5 (c : Dev nD) (t : Fin cfg0.N) : (iblk m c 5 t : Vec Ideal S16x4 .f32) = V m c main_arg5 := by
  funext y
  show V m c main_arg5 (((cfg0.win 5).blk t).view.emb y) = V m c main_arg5 y
  obtain ⟨-, -, -, -, -, -, -, -, -, -, e0, e1, -⟩ := idx_facts t
  refine congrArg _ (funext fun a => Fin.ext ?_)
  match a with
  | ⟨0, _⟩ => show win0_5.index t (0 : Fin 2) * 16 + 1 * (y 0).val = (y 0).val; omega
  | ⟨1, _⟩ => show win0_5.index t (1 : Fin 2) * 4 + 1 * (y 1).val = (y 1).val; omega

theorem blk6 (c : Dev nD) (t : Fin cfg0.N) : (iblk m c 6 t : Vec Ideal S1x4 .f32) = V m c main_arg6 := by
  funext y
  show V m c main_arg6 (((cfg0.win 6).blk t).view.emb y) = V m c main_arg6 y
  obtain ⟨-, -, -, -, -, -, -, -, -, -, -, -, e0, e1, -⟩ := idx_facts t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 4 + 1 * (y 1).val = (y 1).val; omega

/-! ## What a point writes back -/

/-- What point `t` writes back is block `t` of the logits of the argument arrays as the region finds them. -/
theorem flushed_eq (c : Dev nD) (t : Fin cfg0.N) :
    (dats m 0 c).flushed 7 t = ((cfg0.win 7).blk t).view.read (Elt Ideal)
      (Cert.Mlp.logits (V m c main_arg0) (V m c main_arg1) (V m c main_arg2) (V m c main_arg3) (V m c main_arg4)
        (V m c main_arg5) (V m c main_arg6)) := by
  show (cfg0.win 7).cut (grid0.coords t) ((dats m 0 c).after 7 t) = _
  rw [after0_7]
  unfold out0_7
  rw [View.canon_unit_zero hz]
  simp only [View.ld_unit_zero (S := S8192x256) hz, View.ld_unit_zero (S := S256x64) hz, View.ld_unit_zero (S := S1x64) hz,
    View.ld_unit_zero (S := S64x16) hz, View.ld_unit_zero (S := S1x16) hz, View.ld_unit_zero (S := S16x4) hz,
    View.ld_unit_zero (S := S1x4) hz]
  funext j
  obtain ⟨p, q, rfl⟩ : ∃ (p : Fin 8192) (q : Fin 4), j = ix2 p q := ⟨j 0, j 1, eq_ix2 j⟩
  show k0_pay1 (F := Ideal) (iblk m c 0 t) (iblk m c 1 t) (iblk m c 2 t) (iblk m c 3 t) (iblk m c 4 t) (iblk m c 5 t)
      (iblk m c 6 t) (ix2 p q)
    = Cert.Mlp.logits (V m c main_arg0) (V m c main_arg1) (V m c main_arg2) (V m c main_arg3) (V m c main_arg4)
        (V m c main_arg5) (V m c main_arg6) (((cfg0.win 7).blk t).view.emb (ix2 p q))
  refine (Cert.KernelIdeal.BlockValue.pay_apply (iblk m c 0 t) (iblk m c 1 t) (iblk m c 2 t) (iblk m c 3 t)
    (iblk m c 4 t) (iblk m c 5 t) (iblk m c 6 t) p q).trans ?_
  rw [blk1 m c t, blk2 m c t, blk3 m c t, blk4 m c t, blk5 m c t, blk6 m c t]
  obtain ⟨e00, e01, -, -, -, -, -, -, -, -, -, -, -, -, -, e71⟩ := idx_facts t
  refine logits_of_row (V m c main_arg0) (V m c main_arg1) (V m c main_arg2) (V m c main_arg3) (V m c main_arg4)
    (V m c main_arg5) (V m c main_arg6) (iblk m c 0 t) (((cfg0.win 7).blk t).view.emb (ix2 p q)) p q ?_ ?_
  · show win0_7.index t (1 : Fin 2) * 4 + 1 * q.val = q.val
    omega
  · intro k
    show V m c main_arg0 (((cfg0.win 0).blk t).view.emb (ix2 p k))
      = V m c main_arg0 (ix2 ((((cfg0.win 7).blk t).view.emb (ix2 p q)) 0) k)
    refine congrArg _ (funext fun a => Fin.ext ?_)
    match a with
    | ⟨0, _⟩ => show win0_0.index t (0 : Fin 2) * 8192 + 1 * p.val = win0_7.index t (0 : Fin 2) * 8192 + 1 * p.val; omega
    | ⟨1, _⟩ => show win0_0.index t (1 : Fin 2) * 256 + 1 * k.val = k.val; omega

/-! ## The blocks cover the array -/

/-- An index of the result is in point `t`'s block iff each coordinate is in the block's range on its axis. -/
theorem mem_blk (t : Fin cfg0.N) (i : S262144x4.Idx) :
    i ∈ ((cfg0.win 7).blk t).view.set ↔ ∀ a : Fin 2, win0_7.index t a * S8192x4.size a ≤ (i a).val
      ∧ (i a).val < win0_7.index t a * S8192x4.size a + S8192x4.size a := by
  show i ∈ ((View.whole main_v0).slice (win0_7.rect t)).set ↔ _
  rw [View.set_slice_whole, Rect.mem_set_unit]
  exact Iff.rfl

/-- Row `r` is in the block of the point whose row block is `r / 8192`. -/
theorem cover (i : S262144x4.Idx) :
    ∃ t : Fin cfg0.N, (cfg0.win 7).flush t = true ∧ i ∈ ((cfg0.win 7).blk t).view.set := by
  have hi0 : (i 0).val < 262144 := (i 0).isLt
  have hi1 : (i 1).val < 4 := (i 1).isLt
  obtain ⟨t, ht⟩ := idx_onto ⟨(i 0).val / 8192, by omega⟩
  have q0 : win0_7.index t (0 : Fin 2) = (i 0).val / 8192 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 8192 ≤ (i 0).val ∧ (i 0).val < win0_7.index t (0 : Fin 2) * 8192 + 8192
    omega
  | ⟨1, _⟩ =>
    show win0_7.index t (1 : Fin 2) * 4 ≤ (i 1).val ∧ (i 1).val < win0_7.index t (1 : Fin 2) * 4 + 4
    omega

/-- After the region the result array holds the logits of every row, of the argument arrays at launch. -/
theorem final (c : Dev nD) :
    (dats m 0 c).arrAt 7 cfg0.N
      = Cert.Mlp.logits (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  (dats m 0 c).arrAt_eq_of_cover 7 _ (fun t _ => flushed_eq m c t) cover

end Cert.KernelIdeal.Logits

end
-- ==== Proof.Softmax.lean ====
/-
  The final normalisation both programs apply to the 262144 × 4 array of logits, as ONE function: subtract the maximum
  over all entries, exponentiate, and divide by the sum of all the exponentials (a softmax over the whole array, not
  per row). It is stated for any float instance and takes the three shape facts its operations cite as arguments, so
  that either program's run, which cites its own proofs of those facts, is literally this function of its logits.
-/
import Idealize.ShloMosaic.Lib.ValueIdx
import Idealize.ShloMosaic.PureOps.Ideal.Laws

noncomputable section

namespace Cert.Softmax

open Idealize.ShloMosaic

/-- The logits' shape. -/
abbrev SOut : Shape := ⟨2, ![262144, 4]⟩
/-- The shape of a scalar. -/
abbrev S0 : Shape := ⟨0, ![]⟩

variable {F : FTy → Type} [FloatOps F]

/-- `exp (h − max h) / Σ exp (h − max h)`, the maximum and the sum over every entry of `h`; the maximum is folded
    from −∞ and the sum from 0, the words both programs print. -/
def normalise (hr : SOut.ReducesTo [0, 1] S0) (h0 : 0 < S0.numel)
    (hb : S0.BroadcastsInDim SOut (![] : Fin 0 → Fin SOut.rank)) (h : FVec F SOut .f32) : FVec F SOut .f32 :=
  Host.divf
    (Host.exp (subf h (broadcastInDim SOut ![] hb
      (Host.reduce FloatOps.maximumf h (constant S0 .f32 0xFF800000#32) hr h0))))
    (broadcastInDim SOut ![] hb
      (Host.reduceAdd
        (Host.exp (subf h (broadcastInDim SOut ![] hb
          (Host.reduce FloatOps.maximumf h (constant S0 .f32 0xFF800000#32) hr h0))))
        (constant S0 .f32 0x00000000#32) hr h0))

end Cert.Softmax

end
-- ==== Proof.KernelRun.lean ====
/-
  The kernel program's run, read: the result is the normalisation of the logits of the argument arrays.

  After the region the result array of the pallas_call holds the perceptron's logits of every row. The nine host
  operations that follow it (a constant −∞, the maximum over all entries, its broadcast, the difference, the
  exponential, a constant 0, the sum over all entries, its broadcast, the quotient) read that array and write only
  their own buffers, so the program's result is the normalisation applied to the logits. The argument arrays end as
  they were launched.
-/
import proofs.«173424_j26654567039110_1_alg».proof.Proof.Logits
import proofs.«173424_j26654567039110_1_alg».proof.Proof.Softmax
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- The logits of the argument arrays as launched on core `c`. -/
abbrev logitsOf (c : Dev nD) : FVec Ideal Cert.Softmax.SOut .f32 :=
  Cert.Mlp.logits (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The program's result buffer is unscoped and is no window's array. -/
theorem result_mem_rest : main_v7 ∈ Pipeline.restRefs sig spec0 :=
  Pipeline.mem_restRefs_of main_v7 rfl (fun w => by fin_cases w <;> decide)

/-- What the host operations after the region leave in the result buffer: the normalisation of the logits. -/
theorem tail_eq (c : Dev nD) :
    Pipeline.afterTail₀ cfgs (dats m) 0 (V0 m) [hostOps1] c main_v7
      = Cert.Softmax.normalise reducesTo_S262144x4_S_d0_1 h_S_ bcast_S_S262144x4 (logitsOf m c) := by
  unfold Pipeline.afterTail₀
  show StableHlo.after hostOps1 _ (Proc.devRef .tc main_v7) = _
  after_results
  have e : Pipeline.withArrays (cfgs 0).spec c (V0 m c) (fun w => (dats m 0 c).arrAt w (cfgs 0).N)
      (Proc.devRef .tc main_v0) = logitsOf m c :=
    (Pipeline.withArrays_arr spec0 launch0.win.arr_inj c _ _ 7).trans (Cert.KernelIdeal.Logits.final m c)
  rw [e]
  rfl

/-- Every weakly fair execution of the kernel program terminates with its result at the normalisation of the
    logits of the argument arrays, and the argument arrays as launched. -/
theorem run : θ_run defs (onTc (τ := τ) (main (F := Ideal))) ⟨m, fun _ => 0, ρ⟩ (fun r => ∀ c : Dev nD,
      r.2.mem ((c.tc : Thread nD τ).loc main_v7)
        = Cert.Softmax.normalise reducesTo_S262144x4_S_d0_1 h_S_ bcast_S_S262144x4 (logitsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v7 result_mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.KernelRun

end
-- ==== Proof.RefLogits.lean ====
/-
  The reference's array before its final normalisation is the perceptron's logits of every row of `x`.

  The reference computes the three layers on whole arrays: `dot_general` of all 262144 rows at once, each bias
  broadcast along axis 1, `maximum` against a broadcast zero, `tanh`. Read at entry (r, q), stage by stage, each
  product is the sum over its contracted coordinate and each broadcast reads its operand's one row, so the entry is
  logit `q` of row `r`.
-/
import proofs.«173424_j26654567039110_1_alg».proof.Proof.Gen.ReferenceIdeal.Read
import proofs.«173424_j26654567039110_1_alg».proof.Proof.Mlp

noncomputable section

open scoped BigOperators

namespace Cert.ReferenceIdeal.RefLogits

open Cert.ReferenceIdeal Cert.ReferenceIdeal.Gen Cert.ReferenceIdeal.Read Idealize.ShloMosaic Idealize.ShloMosaic.ValueIdx

/-! ## The operand indices each stage reads, at an entry given by its two coordinates -/

theorem lidx0 (r : Fin 262144) (k : Fin 64) (c : Fin 256) : lidx_main_v0 (ix2 r k) c = ix2 r c :=
  funext fun a => Fin.ext (by match a with | ⟨0, _⟩ => rfl | ⟨1, _⟩ => rfl)
theorem ridx0 (r : Fin 262144) (k : Fin 64) (c : Fin 256) : ridx_main_v0 (ix2 r k) c = ix2 c k :=
  funext fun a => Fin.ext (by match a with | ⟨0, _⟩ => rfl | ⟨1, _⟩ => rfl)
theorem bidx1 (r : Fin 262144) (k : Fin 64) : idx_main_v1 (ix2 r k) = ix2 (0 : Fin 1) k :=
  funext fun a => Fin.ext (by match a with | ⟨0, _⟩ => rfl | ⟨1, _⟩ => rfl)
theorem lidx4 (r : Fin 262144) (k : Fin 16) (c : Fin 64) : lidx_main_v4 (ix2 r k) c = ix2 r c :=
  funext fun a => Fin.ext (by match a with | ⟨0, _⟩ => rfl | ⟨1, _⟩ => rfl)
theorem ridx4 (r : Fin 262144) (k : Fin 16) (c : Fin 64) : ridx_main_v4 (ix2 r k) c = ix2 c k :=
  funext fun a => Fin.ext (by match a with | ⟨0, _⟩ => rfl | ⟨1, _⟩ => rfl)
theorem bidx5 (r : Fin 262144) (k : Fin 16) : idx_main_v5 (ix2 r k) = ix2 (0 : Fin 1) k :=
  funext fun a => Fin.ext (by match a with | ⟨0, _⟩ => rfl | ⟨1, _⟩ => rfl)
theorem lidx8 (r : Fin 262144) (q : Fin 4) (c : Fin 16) : lidx_main_v8 (ix2 r q) c = ix2 r c :=
  funext fun a => Fin.ext (by match a with | ⟨0, _⟩ => rfl | ⟨1, _⟩ => rfl)
theorem ridx8 (r : Fin 262144) (q : Fin 4) (c : Fin 16) : ridx_main_v8 (ix2 r q) c = ix2 c q :=
  funext fun a => Fin.ext (by match a with | ⟨0, _⟩ => rfl | ⟨1, _⟩ => rfl)
theorem bidx9 (r : Fin 262144) (q : Fin 4) : idx_main_v9 (ix2 r q) = ix2 (0 : Fin 1) q :=
  funext fun a => Fin.ext (by match a with | ⟨0, _⟩ => rfl | ⟨1, _⟩ => rfl)

variable (x0 : (⟨S262144x256, .f32⟩ : BufTy).Contents (Elt Ideal)) (x1 : (⟨S256x64, .f32⟩ : BufTy).Contents (Elt Ideal))
  (x2 : (⟨S1x64, .f32⟩ : BufTy).Contents (Elt Ideal)) (x3 : (⟨S64x16, .f32⟩ : BufTy).Contents (Elt Ideal))
  (x4 : (⟨S1x16, .f32⟩ : BufTy).Contents (Elt Ideal)) (x5 : (⟨S16x4, .f32⟩ : BufTy).Contents (Elt Ideal))
  (x6 : (⟨S1x4, .f32⟩ : BufTy).Contents (Elt Ideal))

/-! ## The three layers, read at an entry -/

/-- After the first layer's `maximum`, entry (r, k) is the first hidden layer of row `r` at `k`. -/
theorem hid1_apply (r : Fin 262144) (k : Fin 64) :
    val_main_v3 (F := Ideal) x0 x1 x2 (ix2 r k) = Cert.Mlp.hid1 (Cert.Mlp.row x0 r) x1 x2 k := by
  rw [val_main_v3_apply, val_main_v2_apply, val_main_v0_apply, val_main_v1_apply, val_main_call0_v0_apply,
    val_main_call0_cst_apply]
  simp only [lidx0, ridx0, bidx1]
  rfl

/-- After the second layer's `tanh`, entry (r, k) is the second hidden layer of row `r` at `k`. -/
theorem hid2_apply (r : Fin 262144) (k : Fin 16) :
    val_main_v7 (F := Ideal) x0 x1 x2 x3 x4 (ix2 r k) = Cert.Mlp.hid2 (Cert.Mlp.row x0 r) x1 x2 x3 x4 k := by
  rw [val_main_v7_apply, val_main_v6_apply, val_main_v4_apply, val_main_v5_apply]
  simp only [lidx4, ridx4, bidx5, hid1_apply]
  rfl

/-- After the third layer's bias, entry (r, q) is logit `q` of row `r`. -/
theorem logit_apply (r : Fin 262144) (q : Fin 4) :
    val_main_v10 (F := Ideal) x0 x1 x2 x3 x4 x5 x6 (ix2 r q) = Cert.Mlp.logit (Cert.Mlp.row x0 r) x1 x2 x3 x4 x5 x6 q := by
  rw [val_main_v10_apply, val_main_v8_apply, val_main_v9_apply]
  simp only [lidx8, ridx8, bidx9, hid2_apply]
  rfl

/-- The reference's array of logits is the perceptron's, of the argument arrays. -/
theorem logits_eq : val_main_v10 (F := Ideal) x0 x1 x2 x3 x4 x5 x6 = Cert.Mlp.logits x0 x1 x2 x3 x4 x5 x6 := by
  funext i
  obtain ⟨r, q, rfl⟩ : ∃ (r : Fin 262144) (q : Fin 4), i = ix2 r q := ⟨i 0, i 1, eq_ix2 i⟩
  rw [logit_apply]
  rfl

end Cert.ReferenceIdeal.RefLogits

end
-- ==== Proof.RefResult.lean ====
/-
  The reference's result is the normalisation of the perceptron's logits of its arguments.

  The last seven host operations of the reference (−∞, the maximum over all entries, its broadcast, the difference, the
  exponential, 0, the sum over all entries, its broadcast, the quotient) are the normalisation applied to the array of
  logits; and that array is the perceptron's logits of every row.
-/
import proofs.«173424_j26654567039110_1_alg».proof.Proof.RefLogits
import proofs.«173424_j26654567039110_1_alg».proof.Proof.Softmax

noncomputable section

namespace Cert.ReferenceIdeal.RefResult

open Cert.ReferenceIdeal Cert.ReferenceIdeal.Gen Cert.ReferenceIdeal.Read Idealize.ShloMosaic

/-- The reference's last stage, as the normalisation of the logits of its arguments. -/
theorem result_eq (x0 : (⟨S262144x256, .f32⟩ : BufTy).Contents (Elt Ideal)) (x1 : (⟨S256x64, .f32⟩ : BufTy).Contents (Elt Ideal))
    (x2 : (⟨S1x64, .f32⟩ : BufTy).Contents (Elt Ideal)) (x3 : (⟨S64x16, .f32⟩ : BufTy).Contents (Elt Ideal))
    (x4 : (⟨S1x16, .f32⟩ : BufTy).Contents (Elt Ideal)) (x5 : (⟨S16x4, .f32⟩ : BufTy).Contents (Elt Ideal))
    (x6 : (⟨S1x4, .f32⟩ : BufTy).Contents (Elt Ideal)) :
    val_main_v17 (F := Ideal) x0 x1 x2 x3 x4 x5 x6
      = Cert.Softmax.normalise (F := Ideal) reducesTo_S262144x4_S_d0_1 h_S_ bcast_S_S262144x4 (Cert.Mlp.logits x0 x1 x2 x3 x4 x5 x6) := by
  rw [← Cert.ReferenceIdeal.RefLogits.logits_eq]
  rfl

end Cert.ReferenceIdeal.RefResult

end
-- ==== Proof.lean ====
/-
  The kernel is a three-layer perceptron over the 262144 rows of `x` (relu, then tanh, then an affine map to four
  logits), computed by one pallas_call over 32 blocks of 8192 rows, followed on the host by a softmax over ALL
  262144 × 4 logits. The reference computes the same three layers on the whole arrays and the same softmax.

  At the ideal values a rounding of an operand to bf16 is the identity, a matrix product into a zero accumulator is
  the host's `dot_general`, and a one-row bias laid along the rows is the host's broadcast along axis 1; so each entry
  of either program's logits is the same explicit sum (Proof/Mlp.lean), whatever block its row falls in. The kernel's
  32 blocks are restrictions of that one array and cover it (Proof/Logits.lean, over Proof/BlockValue.lean); the
  reference's stages are read entry by entry (Proof/RefLogits.lean). Both programs then apply one and the same
  normalisation (Proof/Softmax.lean) to equal arrays, so their results are equal: no law of arithmetic beyond the
  definitions is used, and the finiteness of the inputs is never needed.

  The three frames: the two kernel programs' are the generated ones; the reference's is its run with the result dropped.
  The idealization rewrote no operation, so `preserves` has nothing to state.
-/
import proofs.«173424_j26654567039110_1_alg».proof.Defs
import proofs.«173424_j26654567039110_1_alg».proof.Proof.Gen.Kernel
import proofs.«173424_j26654567039110_1_alg».proof.Proof.Gen.Kernel.Skeleton
import proofs.«173424_j26654567039110_1_alg».proof.Proof.Gen.Kernel.Launch
import proofs.«173424_j26654567039110_1_alg».proof.Proof.Gen.Kernel.Points
import proofs.«173424_j26654567039110_1_alg».proof.Proof.Gen.Kernel.Frame
import proofs.«173424_j26654567039110_1_alg».proof.Proof.Gen.KernelIdeal
import proofs.«173424_j26654567039110_1_alg».proof.Proof.Gen.KernelIdeal.Skeleton
import proofs.«173424_j26654567039110_1_alg».proof.Proof.Gen.KernelIdeal.Launch
import proofs.«173424_j26654567039110_1_alg».proof.Proof.Gen.KernelIdeal.Points
import proofs.«173424_j26654567039110_1_alg».proof.Proof.Gen.KernelIdeal.Frame
import proofs.«173424_j26654567039110_1_alg».proof.Proof.Gen.ReferenceIdeal
import proofs.«173424_j26654567039110_1_alg».proof.Proof.Gen.Pre_finite_inputs
import proofs.«173424_j26654567039110_1_alg».proof.Proof.Gen.ReferenceIdeal.Run
import proofs.«173424_j26654567039110_1_alg».proof.Proof.Gen.ReferenceIdeal.Read
import proofs.«173424_j26654567039110_1_alg».proof.Proof.KernelRun
import proofs.«173424_j26654567039110_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the normalisation of the perceptron's logits of the kernel's arguments: the kernel by
    its run read through the region and the host tail, the reference by its run read stage by stage, from arguments
    that agree. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _ _ _ _ _ _).trans ?_
  rw [Cert.ReferenceIdeal.RefResult.result_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
